-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S131072 : Shape := ⟨1, ![131072]⟩
abbrev S4096 : Shape := ⟨1, ![4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32x4096 .f32) (main_arg1 : IVec S4096x4096 32) (main_arg2 : FVec F S131072 .f32) (main_arg3 : FVec F S4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32x4096 : Shape := ⟨2, ![32, 4096]⟩
abbrev S4096x4096 : Shape := ⟨2, ![4096, 4096]⟩
abbrev S131072 : Shape := ⟨1, ![131072]⟩
abbrev S4096 : Shape := ⟨1, ![4096]⟩
abbrev S4096x32 : Shape := ⟨2, ![4096, 32]⟩
abbrev S256x4096 : Shape := ⟨2, ![256, 4096]⟩
abbrev S256x32 : Shape := ⟨2, ![256, 32]⟩
abbrev S256 : Shape := ⟨1, ![256]⟩
abbrev S32x256 : Shape := ⟨2, ![32, 256]⟩
abbrev S256x32x1 : Shape := ⟨3, ![256, 32, 1]⟩
abbrev S256x32x128 : Shape := ⟨3, ![256, 32, 128]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S32x4096, .f32⟩
  | .hbm, ⟨1, _⟩ => ⟨S4096x4096, .i32⟩
  | .hbm, ⟨2, _⟩ => ⟨S131072, .f32⟩
  | .hbm, ⟨3, _⟩ => ⟨S4096, .f32⟩
  | .hbm, ⟨4, _⟩ => ⟨S4096x32, .f32⟩
  | .hbm, ⟨5, _⟩ => ⟨S32x4096, .f32⟩
  | .local _ .vmem, ⟨0, _⟩ => ⟨S32x4096, .f32⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S256, .f32⟩
  | .local _ .vmem, ⟨6, _⟩ => ⟨S256, .f32⟩
  | .local _ .vmem, ⟨7, _⟩ => ⟨S32x256, .f32⟩
  | .local _ .vmem, ⟨8, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S131072_S4096x32 : S131072.ShapeCasts S4096x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  shapeCasts_S256x32x1_S256x32x1 : S256x32x1.ShapeCasts S256x32x1
  broadcasts_S256x32x1_S256x32x128 : S256x32x1.Broadcasts S256x32x128
  shapeCasts_S256x32x128_S256x4096 : S256x32x128.ShapeCasts S256x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  dot_S32x4096_S256x4096_S32x256_1_1_0_0_n_n_wf : DotDims.WF S32x4096 S256x4096 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S4096.size a
  hwx0_3 : ∀ i : grid0.Coords, EltTy.bits .f32 = 32 ∨ (Rect.block (s := S4096) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x4096.size a
  hwx0_4 : ∀ i : grid0.Coords, EltTy.bits .f32 = 32 ∨ (Rect.block (s := S32x4096) S32x256.size (cc0_transform_4 i) (hinb0_4 i)).WholeWords (EltTy.packing .f32)

variable [Facts₀]

def dot_S32x4096_S256x4096_S32x256_1_1_0_0_n_n : DotDims S32x4096 S256x4096 S32x256 where
  lhsContracting := [1]
  rhsContracting := [1]
  lhsNonContracting := [0]
  rhsNonContracting := [0]
  lhsBatch := []
  rhsBatch := []
  wf := dot_S32x4096_S256x4096_S32x256_1_1_0_0_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096 : Shape := ⟨2, ![32, 4096]⟩
abbrev S4096x4096 : Shape := ⟨2, ![4096, 4096]⟩
abbrev S131072 : Shape := ⟨1, ![131072]⟩
abbrev S4096 : Shape := ⟨1, ![4096]⟩
abbrev S131072x128 : Shape := ⟨2, ![131072, 128]⟩
abbrev S131072x1 : Shape := ⟨2, ![131072, 1]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .i32⟩
  | .hbm, ⟨2, _⟩ => ⟨S131072, .f32⟩
  | .hbm, ⟨3, _⟩ => ⟨S4096, .f32⟩
  | .hbm, ⟨4, _⟩ => ⟨S4096x4096, .f32⟩
  | .hbm, ⟨5, _⟩ => ⟨S131072x128, .f32⟩
  | .hbm, ⟨6, _⟩ => ⟨S131072x1, .f32⟩
  | .hbm, ⟨7, _⟩ => ⟨S131072x128, .f32⟩
  | .hbm, ⟨8, _⟩ => ⟨S131072x128, .f32⟩
  | .hbm, ⟨9, _⟩ => ⟨S4096x4096, .f32⟩
  | .hbm, ⟨10, _⟩ => ⟨S4096x4096, .f32⟩
  | .hbm, ⟨11, _⟩ => ⟨S32x4096, .f32⟩
  | .hbm, ⟨12, _⟩ => ⟨S1x4096, .f32⟩
  | .hbm, ⟨13, _⟩ => ⟨S32x4096, .f32⟩
  | .hbm, ⟨14, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S4096x4096_S131072x128 : S4096x4096.ShapeCasts S131072x128
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  shapeCasts_S131072x128_S4096x4096 : S131072x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_0_0_1_n_n_wf : DotDims.WF S32x4096 S4096x4096 S32x4096 [1] [0] [0] [1] [] []

variable [Facts₀]

def dot_S32x4096_S4096x4096_S32x4096_1_0_0_1_n_n : DotDims S32x4096 S4096x4096 S32x4096 where
  lhsContracting := [1]
  rhsContracting := [0]
  lhsNonContracting := [0]
  rhsNonContracting := [1]
  lhsBatch := []
  rhsBatch := []
  wf := dot_S32x4096_S4096x4096_S32x4096_1_0_0_1_n_n_wf

class Facts : Prop extends Facts₀ where

variable [Facts]
-- ==== Proof.Spec.lean ====
/-
  The function both programs compute: a linear layer whose 4096 × 4096 weight matrix is stored as signed integers with
  one scale per run of 128 consecutive entries of a row (32 runs to a row, the runs numbered row-major over the whole
  matrix, 131072 in all).

      out[r, n] = Σ_k x[r, k] · (int(q[n, k]) · scale[32·n + k / 128]) + bias[n]        r < 32, n < 4096, k < 4096

  Stated once over the whole arrays (`linear`) and once over one block of 256 output features (`linearBlock`: the 256
  weight rows of the block, their 256 × 32 scales, their 256 biases), on the extended reals; `linear_block` says that
  the block form at the block's own rows is the whole form restricted to them. No law of arithmetic is used: the two
  programs multiply and add in the same order, only the layout of the scales differs.
-/
import Idealize.ShloMosaic.PureOps.Ideal
import Idealize.ShloMosaic.PureOps.Ideal.Laws
import Idealize.ShloMosaic.Lib.ValueIdx

noncomputable section

namespace Cert.GroupDequant

open Idealize.ShloMosaic Idealize.ShloMosaic.ValueIdx

/-- The scale run of weight entry `(n, k)`: row `n` holds runs `32·n … 32·n + 31`, entry `k` of the row lies in the
    `k / 128`-th of them. -/
def scaleRun (n k : Fin 4096) : Fin 131072 :=
  ⟨n.val * 32 + k.val / 128, by have := n.isLt; have := k.isLt; omega⟩

/-- The run of column `k` inside its own row. -/
def runInRow (k : Fin 4096) : Fin 32 := ⟨k.val / 128, by have := k.isLt; omega⟩

/-- One dequantised weight: the stored integer, read signed, times the scale of its run. -/
def weight (q : (⟨2, ![4096, 4096]⟩ : Shape).Idx → BitVec 32) (s : (⟨1, ![131072]⟩ : Shape).Idx → EReal)
    (n k : Fin 4096) : EReal :=
  FloatOps.sitofp (F := Ideal) .f32 (q (ix2 n k)) * s (ix1 (scaleRun n k))

/-- The layer on the whole arrays: row `r` of `x` against row `n` of the dequantised weights, plus the bias of `n`. -/
def linear (x : (⟨2, ![32, 4096]⟩ : Shape).Idx → EReal) (q : (⟨2, ![4096, 4096]⟩ : Shape).Idx → BitVec 32)
    (s : (⟨1, ![131072]⟩ : Shape).Idx → EReal) (b : (⟨1, ![4096]⟩ : Shape).Idx → EReal) :
    (⟨2, ![32, 4096]⟩ : Shape).Idx → EReal :=
  fun i => (∑ k : Fin 4096, x (ix2 (i 0) k) * weight q s (i 1) k) + b (ix1 (i 1))

/-- The layer on one block of 256 output features: `qb` the block's weight rows, `sb` their scales laid out as
    256 rows of 32 runs, `bb` their biases. -/
def linearBlock (x : (⟨2, ![32, 4096]⟩ : Shape).Idx → EReal) (qb : (⟨2, ![256, 4096]⟩ : Shape).Idx → BitVec 32)
    (sb : (⟨2, ![256, 32]⟩ : Shape).Idx → EReal) (bb : (⟨1, ![256]⟩ : Shape).Idx → EReal) :
    (⟨2, ![32, 256]⟩ : Shape).Idx → EReal :=
  fun j => (∑ k : Fin 4096, x (ix2 (j 0) k)
      * (FloatOps.sitofp (F := Ideal) .f32 (qb (ix2 (j 1) k)) * sb (ix2 (j 1) (runInRow k)))) + bb (ix1 (j 1))

/-- Row `n` of the whole matrix is row `n'` of a block when the block's weights, scales and biases at `n'` are the whole
    arrays' at `n` (the scales through the 4096 × 32 layout of the runs) and the block's copy of `x` is `x` on row `r`:
    the block form at `(r, n')` is then the whole form at `(r, n)`. -/
theorem linear_block (x : (⟨2, ![32, 4096]⟩ : Shape).Idx → EReal) (q : (⟨2, ![4096, 4096]⟩ : Shape).Idx → BitVec 32)
    (s : (⟨1, ![131072]⟩ : Shape).Idx → EReal) (b : (⟨1, ![4096]⟩ : Shape).Idx → EReal)
    (xb : (⟨2, ![32, 4096]⟩ : Shape).Idx → EReal)
    (qb : (⟨2, ![256, 4096]⟩ : Shape).Idx → BitVec 32) (sb : (⟨2, ![256, 32]⟩ : Shape).Idx → EReal)
    (bb : (⟨1, ![256]⟩ : Shape).Idx → EReal) (r : Fin 32) (n : Fin 4096) (n' : Fin 256)
    (hx : ∀ k : Fin 4096, xb (ix2 r k) = x (ix2 r k))
    (hq : ∀ k : Fin 4096, qb (ix2 n' k) = q (ix2 n k))
    (hs : ∀ g : Fin 32, sb (ix2 n' g) = s (ix1 ⟨n.val * 32 + g.val, by have := n.isLt; have := g.isLt; omega⟩))
    (hb : bb (ix1 n') = b (ix1 n)) :
    linearBlock xb qb sb bb (ix2 r n') = linear x q s b (ix2 r n) := by
  unfold linearBlock linear weight
  show (∑ k : Fin 4096, xb (ix2 r k) * (FloatOps.sitofp (F := Ideal) .f32 (qb (ix2 n' k)) * sb (ix2 n' (runInRow k)))) + bb (ix1 n')
    = (∑ k : Fin 4096, x (ix2 r k) * (FloatOps.sitofp (F := Ideal) .f32 (q (ix2 n k)) * s (ix1 (scaleRun n k)))) + b (ix1 n)
  rw [hb]
  refine congrArg (· + b (ix1 n)) (Finset.sum_congr rfl fun k _ => ?_)
  rw [hx k, hq k, hs (runInRow k)]
  rfl

end Cert.GroupDequant

end
-- ==== Proof.RefSide.lean ====
/-
  The reference, read index by index, is `linear`.

  The reference converts the weights to floats, regroups the 4096 × 4096 matrix as 131072 runs of 128, multiplies run
  `g` by `scale[g]`, regroups back, transposes, and contracts `x`'s columns against the transposed matrix's rows; then
  adds the bias broadcast over the 32 rows. Entry `(n, k)` of the matrix is entry `k mod 128` of run
  `(4096·n + k) / 128 = 32·n + k / 128`, and the two regroupings undo each other, so the contraction's right factor
  at `(k, n)` is `int(q[n, k]) · scale[32·n + k / 128]`.
-/
import proofs.«162320_j76768245449069_1_alg».proof.Proof.Gen.ReferenceIdeal.Read
import proofs.«162320_j76768245449069_1_alg».proof.Proof.Spec

noncomputable section

namespace Cert.GroupDequant.Ref

open Idealize.ShloMosaic Idealize.ShloMosaic.ValueIdx Cert.ReferenceIdeal Cert.ReferenceIdeal.Read

/-- The contraction's left factor sits at `(r, k)`. -/
theorem left_at (i : S32x4096.Idx) (k : Fin 4096) : lidx_main_v7 i k = ix2 (i 0) k :=
  funext fun a => Fin.ext (by match a with | ⟨0, _⟩ => rfl | ⟨1, _⟩ => rfl)

/-- Through the transpose and the two regroupings, the right factor's weight sits at `(n, k)`. -/
theorem weight_at (i : S32x4096.Idx) (k : Fin 4096) :
    idx_main_v1 (idx_main_v5 (idx_main_v6 (ridx_main_v7 i k))) = ix2 (i 1) k :=
  funext fun a => Fin.ext (by
    have h1 : (i 1).val < 4096 := (i 1).isLt
    have hk : k.val < 4096 := k.isLt
    match a with
    | ⟨0, _⟩ =>
      show (((i 1).val * 4096 + k.val) / 128 * 128 + ((i 1).val * 4096 + k.val) % 128) / 4096 = (i 1).val
      omega
    | ⟨1, _⟩ =>
      show (((i 1).val * 4096 + k.val) / 128 * 128 + ((i 1).val * 4096 + k.val) % 128) % 4096 = k.val
      omega)

/-- and its scale is the one of run `32·n + k / 128`. -/
theorem scale_at (i : S32x4096.Idx) (k : Fin 4096) :
    idx_main_v2 (idx_main_v3 (idx_main_v5 (idx_main_v6 (ridx_main_v7 i k)))) = ix1 (scaleRun (i 1) k) :=
  funext fun a => Fin.ext (by
    have h1 : (i 1).val < 4096 := (i 1).isLt
    have hk : k.val < 4096 := k.isLt
    match a with
    | ⟨0, _⟩ =>
      show ((i 1).val * 4096 + k.val) / 128 = (i 1).val * 32 + k.val / 128
      omega)

/-- The broadcast bias at `(r, n)` is `bias[n]`. -/
theorem bias_at (i : S32x4096.Idx) : idx_main_v8 (idx_main_v9 i) = ix1 (i 1) :=
  funext fun a => Fin.ext (by match a with | ⟨0, _⟩ => rfl)

/-- The reference's result, as a function of the four argument arrays, is `linear`. -/
theorem result_eq (x : (⟨S32x4096, .f32⟩ : BufTy).Contents (Elt Ideal)) (q : (⟨S4096x4096, .i32⟩ : BufTy).Contents (Elt Ideal))
    (s : (⟨S131072, .f32⟩ : BufTy).Contents (Elt Ideal)) (b : (⟨S4096, .f32⟩ : BufTy).Contents (Elt Ideal)) :
    val_main_v10 (F := Ideal) x q s b = linear x q s b := by
  funext i
  rw [val_main_v10_apply, val_main_v7_apply, val_main_v9_apply, val_main_v8_apply, bias_at]
  unfold linear weight
  refine congrArg (· + b (ix1 (i 1))) (Finset.sum_congr rfl fun k _ => ?_)
  rw [val_main_v6_apply, val_main_v5_apply, val_main_v4_apply, val_main_v1_apply, val_main_v0_apply,
    val_main_v3_apply, val_main_v2_apply, left_at, weight_at, scale_at]
  rfl

end Cert.GroupDequant.Ref

end
-- ==== Proof.BodyValue.lean ====
/-
  What the kernel body computes from the blocks it loads, index by index: `linearBlock`.

  The body loads the block's 256 × 32 scales and lays each scale out over the 128 columns of its run (a trailing unit
  axis, a broadcast to 256 × 32 × 128, the last two axes merged: column `k` of the 256 × 4096 result carries run
  `k / 128`), multiplies the block's integer weights, read signed, by them, and contracts the 4096 columns of `x` with
  the 4096 columns of that product on the matrix unit into a zero accumulator; the narrowings to 16-bit floats before
  the product are the identity on the extended reals. It then adds the block's 256 biases, broadcast over the 32 rows.
-/
import proofs.«162320_j76768245449069_1_alg».proof.Proof.Gen.KernelIdeal.Skeleton
import proofs.«162320_j76768245449069_1_alg».proof.Proof.Spec
import Idealize.ShloMosaic.Lib.Pipeline.Value
import Idealize.ShloMosaic.Lib.ValueIdx
import Idealize.ShloMosaic.PureOps.Ideal.Laws

noncomputable section

namespace Cert.GroupDequant.Body

open Idealize.ShloMosaic Idealize.ShloMosaic.ValueIdx Cert.KernelIdeal Cert.KernelIdeal.Gen

/-! ## The layout of the scales and of the bias -/

/-- A 256 × 32 array given a trailing unit axis, at `(a, g, 0)`. -/
theorem unitAxis_apply {α : Type} (v : S256x32.Idx → α) (h : S256x32.ShapeCasts S256x32x1) (a : Fin 256) (g : Fin 32) (z : Fin 1) :
    shapeCast S256x32x1 v h (ix3 a g z) = v (ix2 a g) :=
  shapeCast_apply v h (ix3 a g z) (ix2 a g) (by
    rw [Shape.rowMajor_val_two, Shape.rowMajor_val_three]
    have hz : z.val = 0 := by have := z.isLt; omega
    show a.val * 32 + g.val = (a.val * 32 + g.val) * 1 + z.val
    omega)

/-- That array spread over 128 columns per run, at `(a, g, l)`: the value at `(a, g, 0)`. -/
theorem spread_apply {α : Type} (v : S256x32x1.Idx → α) (h : S256x32x1.Broadcasts S256x32x128) (a : Fin 256) (g : Fin 32) (l : Fin 128) :
    broadcastTo S256x32x128 v h (ix3 a g l) = v (ix3 a g (0 : Fin 1)) :=
  broadcastTo_apply v h (ix3 a g l) (ix3 a g (0 : Fin 1)) (fun d => match d with
    | ⟨0, _⟩ => by show a.val = if (256 : Nat) = 1 then 0 else a.val; rw [if_neg (by decide)]
    | ⟨1, _⟩ => by show g.val = if (32 : Nat) = 1 then 0 else g.val; rw [if_neg (by decide)]
    | ⟨2, _⟩ => by show 0 = if (1 : Nat) = 1 then 0 else l.val; rw [if_pos rfl])

/-- The runs' columns merged into one axis of 4096, at `(a, k)`: run `k / 128`, column `k mod 128` of it. -/
theorem merge_apply {α : Type} (v : S256x32x128.Idx → α) (h : S256x32x128.ShapeCasts S256x4096) (a : Fin 256) (k : Fin 4096) :
    shapeCast S256x4096 v h (ix2 a k) = v (ix3 a (runInRow k) ⟨k.val % 128, Nat.mod_lt _ (by decide)⟩) :=
  shapeCast_apply v h (ix2 a k) (ix3 a (runInRow k) ⟨k.val % 128, Nat.mod_lt _ (by decide)⟩) (by
    rw [Shape.rowMajor_val_two, Shape.rowMajor_val_three]
    have hk : k.val < 4096 := k.isLt
    show (a.val * 32 + k.val / 128) * 128 + k.val % 128 = a.val * 4096 + k.val
    omega)

/-- The scales as the body lays them out against the weights: at `(a, k)` the scale of row `a`, run `k / 128`. -/
theorem scales_apply {α : Type} (v : S256x32.Idx → α) (h1 : S256x32.ShapeCasts S256x32) (h2 : S256x32.ShapeCasts S256x32x1)
    (h3 : S256x32x1.ShapeCasts S256x32x1) (h4 : S256x32x1.Broadcasts S256x32x128) (h5 : S256x32x128.ShapeCasts S256x4096)
    (a : Fin 256) (k : Fin 4096) :
    shapeCast S256x4096 (broadcastTo S256x32x128 (shapeCast S256x32x1 (shapeCast S256x32x1 (shapeCast S256x32 v h1) h2) h3) h4) h5 (ix2 a k)
      = v (ix2 a (runInRow k)) := by
  rw [merge_apply, spread_apply, shapeCast_self, unitAxis_apply, shapeCast_self]

/-- The 256 biases as a row, broadcast over the 32 rows, at `(r, a)`: bias `a`. -/
theorem bias_apply {α : Type} (v : S256.Idx → α) (h1 : S256.ShapeCasts S1x256) (h2 : S1x256.Broadcasts S32x256) (r : Fin 32) (a : Fin 256) :
    broadcastTo S32x256 (shapeCast S1x256 v h1) h2 (ix2 r a) = v (ix1 a) := by
  rw [broadcastTo_apply (shapeCast S1x256 v h1) h2 (ix2 r a) (ix2 (0 : Fin 1) a) (fun d => match d with
    | ⟨0, _⟩ => by show 0 = if (1 : Nat) = 1 then 0 else r.val; rw [if_pos rfl]
    | ⟨1, _⟩ => by show a.val = if (256 : Nat) = 1 then 0 else a.val; rw [if_neg (by decide)])]
  exact shapeCast_apply v h1 (ix2 (0 : Fin 1) a) (ix1 a) (by
    rw [Shape.rowMajor_val_one, Shape.rowMajor_val_two]
    show a.val = 0 * 256 + a.val
    omega)

/-! ## The contraction: columns of `x` against columns of the weight block -/

theorem lhs_axis0 (j : S32x256.Idx) (q : dot_S32x4096_S256x4096_S32x256_1_1_0_0_n_n.contr.Idx) :
    (dot_S32x4096_S256x4096_S32x256_1_1_0_0_n_n.lhsIdx j q 0).val = (j 0).val := by
  unfold DotDims.lhsIdx
  rw [dif_neg (show ¬(0 : Fin S32x4096.rank) ∈ dot_S32x4096_S256x4096_S32x256_1_1_0_0_n_n.lhsBatch by decide), dif_pos (show (0 : Fin S32x4096.rank) ∈ dot_S32x4096_S256x4096_S32x256_1_1_0_0_n_n.lhsNonContracting by decide)]
  rfl
theorem lhs_axis1 (j : S32x256.Idx) (q : dot_S32x4096_S256x4096_S32x256_1_1_0_0_n_n.contr.Idx) :
    (dot_S32x4096_S256x4096_S32x256_1_1_0_0_n_n.lhsIdx j q 1).val = (q ⟨0, by decide⟩).val :=
  dot_S32x4096_S256x4096_S32x256_1_1_0_0_n_n.lhsIdx_val_of_single rfl j q
theorem rhs_axis0 (j : S32x256.Idx) (q : dot_S32x4096_S256x4096_S32x256_1_1_0_0_n_n.contr.Idx) :
    (dot_S32x4096_S256x4096_S32x256_1_1_0_0_n_n.rhsIdx j q 0).val = (j 1).val := by
  unfold DotDims.rhsIdx
  rw [dif_neg (show ¬(0 : Fin S256x4096.rank) ∈ dot_S32x4096_S256x4096_S32x256_1_1_0_0_n_n.rhsBatch by decide), dif_pos (show (0 : Fin S256x4096.rank) ∈ dot_S32x4096_S256x4096_S32x256_1_1_0_0_n_n.rhsNonContracting by decide)]
  rfl
theorem rhs_axis1 (j : S32x256.Idx) (q : dot_S32x4096_S256x4096_S32x256_1_1_0_0_n_n.contr.Idx) :
    (dot_S32x4096_S256x4096_S32x256_1_1_0_0_n_n.rhsIdx j q 1).val = (q ⟨0, by decide⟩).val :=
  dot_S32x4096_S256x4096_S32x256_1_1_0_0_n_n.rhsIdx_val_of_single rfl j q

/-- The matrix unit's product into a zero accumulator, at `(r, a)`: row `r` of the left operand against row `a` of the
    right one, column by column. -/
theorem contract_apply (l : FVec Ideal S32x4096 .bf16) (w : FVec Ideal S256x4096 .bf16) (r : Fin 32) (a : Fin 256) :
    matmul dot_S32x4096_S256x4096_S32x256_1_1_0_0_n_n none l w (constant S32x256 .f32 0x00000000#32) (ix2 r a)
      = ∑ k : Fin 4096, l (ix2 r k) * w (ix2 a k) := by
  simp only [matmul]
  rw [Ideal.matmul_constant_zero_apply, ← Equiv.sum_comp (ValueIdx.contrEquiv1 dot_S32x4096_S256x4096_S32x256_1_1_0_0_n_n 4096 rfl rfl).symm]
  refine Finset.sum_congr rfl fun k _ => ?_
  have hk := ValueIdx.contrEquiv1_symm_val dot_S32x4096_S256x4096_S32x256_1_1_0_0_n_n 4096 rfl rfl k
  have el : dot_S32x4096_S256x4096_S32x256_1_1_0_0_n_n.lhsIdx (ix2 r a) ((ValueIdx.contrEquiv1 dot_S32x4096_S256x4096_S32x256_1_1_0_0_n_n 4096 rfl rfl).symm k) = ix2 r k := funext fun d => Fin.ext (by
    match d with
    | ⟨0, _⟩ => exact lhs_axis0 _ _
    | ⟨1, _⟩ => exact (lhs_axis1 _ _).trans hk)
  have er : dot_S32x4096_S256x4096_S32x256_1_1_0_0_n_n.rhsIdx (ix2 r a) ((ValueIdx.contrEquiv1 dot_S32x4096_S256x4096_S32x256_1_1_0_0_n_n 4096 rfl rfl).symm k) = ix2 a k := funext fun d => Fin.ext (by
    match d with
    | ⟨0, _⟩ => exact rhs_axis0 _ _
    | ⟨1, _⟩ => exact (rhs_axis1 _ _).trans hk)
  rw [el, er]

/-! ## The body's stored value -/

/-- The value the body stores, as a function of the four blocks it loads (scales, weights, `x`, biases, in the order it
    loads them), is `linearBlock`. -/
theorem payload_eq (sb : Vec Ideal S256x32 .f32) (qb : Vec Ideal S256x4096 .i32) (x : Vec Ideal S32x4096 .f32) (bb : Vec Ideal S256 .f32) :
    k0_pay1 (F := Ideal) sb qb x bb = linearBlock x qb sb bb := by
  funext j
  obtain ⟨r, a, rfl⟩ : ∃ (r : Fin 32) (a : Fin 256), j = ix2 r a := ⟨j 0, j 1, eq_ix2 j⟩
  unfold k0_pay1 linearBlock
  refine (addf_apply _ _ (ix2 r a)).trans ?_
  refine congrArg₂ (· + ·) ((contract_apply _ _ r a).trans (Finset.sum_congr rfl fun k _ => ?_)) (bias_apply bb _ _ r a)
  refine congrArg₂ (· * ·) (truncf_apply (φ := .f32) (ψ := .bf16) x (by decide) (ix2 r k)) ?_
  refine (truncf_apply (φ := .f32) (ψ := .bf16) _ (by decide) (ix2 a k)).trans ((mulf_apply _ _ (ix2 a k)).trans ?_)
  exact congrArg₂ (· * ·) (sitofp_apply qb (ix2 a k)) (scales_apply sb _ _ _ _ _ a k)

end Cert.GroupDequant.Body

end
-- ==== Proof.ArrayValue.lean ====
/-
  From what each grid point writes back to the whole result array.

  The grid has 16 points. At point `t` the body sees all of `x`, rows `256·t … 256·t + 255` of the weights, of the
  scales (as the 4096 × 32 regrouping of the 131072 runs: run `g` of row `n` is run `32·n + g`) and of the biases, and
  writes columns `256·t … 256·t + 255` of the 32 × 4096 result. So what point `t` writes is the block form of the
  layer at those rows, which is the whole form restricted to the block's columns; the 16 column blocks tile the result
  (column `n` lies in block `n / 256`), hence the array ends holding `linear` of the four argument arrays.
-/
import proofs.«162320_j76768245449069_1_alg».proof.Proof.Gen.KernelIdeal.Value
import proofs.«162320_j76768245449069_1_alg».proof.Proof.BodyValue
import Idealize.ShloMosaic.Lib.StableHlo.Run

set_option maxRecDepth 16384

noncomputable section

namespace Cert.GroupDequant.Arr

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The layer of the four argument arrays as launched: what the result array is to hold. -/
abbrev result (c : Dev nD) : Buf (Elt Ideal) ((c : Thread nD τ).loc main_v1) :=
  linear (m ((c : Thread nD τ).loc main_arg0)) (m ((c : Thread nD τ).loc main_arg1))
    (m ((c : Thread nD τ).loc main_arg2)) (m ((c : Thread nD τ).loc main_arg3))

theorem zero2 : (![0, 0] : Fin 2 → Nat) = fun _ => 0 := funext fun a => by fin_cases a <;> rfl
theorem zero1 : (![0] : Fin 1 → Nat) = fun _ => 0 := funext fun a => by fin_cases a <;> rfl

/-- Which block each window is on at point `t`: `x` always on its one block; weights, scales and biases on row block
    `t`; the result on column block `t`. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

theorem point_lt (t : Fin cfg0.N) : t.val < 16 := lt_of_lt_of_eq t.isLt N_0

/-- The row of the whole weight matrix that is row `a` of the block at point `t`. -/
def rowOf (t : Fin cfg0.N) (a : Fin 256) : Fin 4096 :=
  ⟨t.val * 256 + a.val, by have := point_lt t; have := a.isLt; omega⟩

/-! ## The blocks the body loads -/

abbrev xBlk (c : Dev nD) (t : Fin cfg0.N) : Vec Ideal S32x4096 .f32 := iblk m c 0 t
abbrev qBlk (c : Dev nD) (t : Fin cfg0.N) : Vec Ideal S256x4096 .i32 := iblk m c 1 t
abbrev sBlk (c : Dev nD) (t : Fin cfg0.N) : Vec Ideal S256x32 .f32 := iblk m c 2 t
abbrev bBlk (c : Dev nD) (t : Fin cfg0.N) : Vec Ideal S256 .f32 := iblk m c 3 t

/-- The 4096 × 32 array the scales' window reads is the regrouping of the 131072 scales. -/
theorem scales2d_eq (c : Dev nD) :
    (V m c main_v0 : S4096x32.Idx → EReal) = shapeCast S4096x32 (m ((c : Thread nD τ).loc main_arg2)) Facts₀.shapeCasts_S131072_S4096x32 := by
  dsimp only [Gen.V, Gen.hostOps0]; after_results; rfl

/-- `x`'s block is all of `x`. -/
theorem xBlk_apply (c : Dev nD) (t : Fin cfg0.N) (r : Fin 32) (k : Fin 4096) :
    xBlk m c t (ix2 r k) = m ((c : Thread nD τ).loc main_arg0) (ix2 r k) := by
  obtain ⟨e0, e1, -⟩ := block_index t
  show V m c main_arg0 (((cfg0.win 0).blk t).view.emb (ix2 r k)) = _
  refine (congrFun (V_main_arg0 m c) _).trans (congrArg _ (funext fun a => Fin.ext ?_))
  match a with
  | ⟨0, _⟩ => show win0_0.index t (0 : Fin 2) * 32 + 1 * r.val = r.val; omega
  | ⟨1, _⟩ => show win0_0.index t (1 : Fin 2) * 4096 + 1 * k.val = k.val; omega

/-- Row `a` of the weights' block is row `256·t + a` of the weights. -/
theorem qBlk_apply (c : Dev nD) (t : Fin cfg0.N) (a : Fin 256) (k : Fin 4096) :
    qBlk m c t (ix2 a k) = m ((c : Thread nD τ).loc main_arg1) (ix2 (rowOf t a) k) := by
  obtain ⟨-, -, e0, e1, -⟩ := block_index t
  show V m c main_arg1 (((cfg0.win 1).blk t).view.emb (ix2 a k)) = _
  refine (congrFun (V_main_arg1 m c) _).trans (congrArg _ (funext fun d => Fin.ext ?_))
  match d with
  | ⟨0, _⟩ => show win0_1.index t (0 : Fin 2) * 256 + 1 * a.val = t.val * 256 + a.val; omega
  | ⟨1, _⟩ => show win0_1.index t (1 : Fin 2) * 4096 + 1 * k.val = k.val; omega

/-- Run `g` of row `a` of the scales' block is run `32·(256·t + a) + g` of the scales. -/
theorem sBlk_apply (c : Dev nD) (t : Fin cfg0.N) (a : Fin 256) (g : Fin 32) :
    sBlk m c t (ix2 a g) = m ((c : Thread nD τ).loc main_arg2)
      (ix1 ⟨(rowOf t a).val * 32 + g.val, by have := (rowOf t a).isLt; have := g.isLt; omega⟩) := by
  obtain ⟨-, -, -, -, e0, e1, -⟩ := block_index t
  show V m c main_v0 (((cfg0.win 2).blk t).view.emb (ix2 a g)) = _
  refine (congrFun (scales2d_eq m c) _).trans (shapeCast_apply (s := S131072) (t := S4096x32) _ _ _ _ ?_)
  rw [Shape.rowMajor_val_one, Shape.rowMajor_val_two]
  show (t.val * 256 + a.val) * 32 + g.val = (win0_2.index t (0 : Fin 2) * 256 + 1 * a.val) * 32 + (win0_2.index t (1 : Fin 2) * 32 + 1 * g.val)
  omega

/-- Entry `a` of the biases' block is bias `256·t + a`. -/
theorem bBlk_apply (c : Dev nD) (t : Fin cfg0.N) (a : Fin 256) :
    bBlk m c t (ix1 a) = m ((c : Thread nD τ).loc main_arg3) (ix1 (rowOf t a)) := by
  obtain ⟨-, -, -, -, -, -, e0, -⟩ := block_index t
  show V m c main_arg3 (((cfg0.win 3).blk t).view.emb (ix1 a)) = _
  refine (congrFun (V_main_arg3 m c) _).trans (congrArg _ (funext fun d => Fin.ext ?_))
  match d with
  | ⟨0, _⟩ => show win0_3.index t (0 : Fin 1) * 256 + 1 * a.val = t.val * 256 + a.val; omega

/-! ## What a point writes, and the whole array -/

/-- The block form on point `t`'s blocks at `j` is the whole form at the index `j` stands for: same row, column
    `256·t + j₁`. -/
theorem block_eq (c : Dev nD) (t : Fin cfg0.N) (j : S32x256.Idx) (i : S32x4096.Idx)
    (h0 : (i 0).val = (j 0).val) (h1 : (i 1).val = t.val * 256 + (j 1).val) :
    linearBlock (xBlk m c t) (qBlk m c t) (sBlk m c t) (bBlk m c t) j = result m c i := by
  obtain ⟨r, a, rfl⟩ : ∃ (r : Fin 32) (a : Fin 256), j = ix2 r a := ⟨j 0, j 1, eq_ix2 j⟩
  obtain rfl : i = ix2 r (rowOf t a) := by
    rw [eq_ix2 i]
    exact congrArg₂ ix2 (Fin.ext h0) (Fin.ext h1)
  exact linear_block _ _ _ _ _ _ _ _ r (rowOf t a) a (fun k => xBlk_apply m c t r k) (fun k => qBlk_apply m c t a k)
    (fun g => sBlk_apply m c t a g) (bBlk_apply m c t a)

/-- What point `t` writes back is block `t` of `result`. -/
theorem flushed_eq (c : Dev nD) (t : Fin cfg0.N) :
    (dats m 0 c).flushed 4 t = ((cfg0.win 4).blk t).view.read (Elt Ideal) (result m c) := by
  obtain ⟨-, -, -, -, -, -, -, e0, e1⟩ := block_index t
  rw [Cert.KernelIdeal.Value.flushed4]
  unfold out0_4
  rw [View.canon_unit_zero zero2]
  simp only [View.ld_unit_zero (S := S256x32) zero2, View.ld_unit_zero (S := S256x4096) zero2,
    View.ld_unit_zero (S := S32x4096) zero2, View.ld_unit_zero (S := S256) zero1]
  funext j
  show k0_pay1 (F := Ideal) (sBlk m c t) (qBlk m c t) (xBlk m c t) (bBlk m c t) j
    = result m c (((cfg0.win 4).blk t).view.emb j)
  refine (congrFun (Body.payload_eq (sBlk m c t) (qBlk m c t) (xBlk m c t) (bBlk m c t)) j).trans ?_
  refine block_eq m c t j _ ?_ ?_
  · show win0_4.index t (0 : Fin 2) * 32 + 1 * (j 0).val = (j 0).val; omega
  · show win0_4.index t (1 : Fin 2) * 256 + 1 * (j 1).val = t.val * 256 + (j 1).val; omega

/-- An index of the result lies in point `t`'s block iff each coordinate lies in the block's range on its axis. -/
theorem mem_block (t : Fin cfg0.N) (i : S32x4096.Idx) :
    i ∈ ((cfg0.win 4).blk t).view.set ↔ ∀ a : Fin 2, win0_4.index t a * S32x256.size a ≤ (i a).val
      ∧ (i a).val < win0_4.index t a * S32x256.size a + S32x256.size a := by
  show i ∈ ((View.whole main_v1).slice (win0_4.rect t)).set ↔ _
  rw [View.set_slice_whole, Rect.mem_set_unit]
  exact Iff.rfl

/-- Every index of the result lies in the block of the point its column selects. -/
theorem cover (i : S32x4096.Idx) :
    ∃ t : Fin cfg0.N, (cfg0.win 4).flush t = true ∧ i ∈ ((cfg0.win 4).blk t).view.set := by
  have h0 : (i 0).val < 32 := (i 0).isLt
  have h1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  obtain ⟨-, -, -, -, -, -, -, e0, e1⟩ := block_index t
  refine ⟨t, flush0_4 t, ?_⟩
  rw [mem_block]
  intro a
  match a with
  | ⟨0, _⟩ =>
    show win0_4.index t (0 : Fin 2) * 32 ≤ (i 0).val ∧ (i 0).val < win0_4.index t (0 : Fin 2) * 32 + 32
    omega
  | ⟨1, _⟩ =>
    show win0_4.index t (1 : Fin 2) * 256 ≤ (i 1).val ∧ (i 1).val < win0_4.index t (1 : Fin 2) * 256 + 256
    omega

/-- The result array after the run is `result`. -/
theorem final (c : Dev nD) : (dats m 0 c).arrAt 4 cfg0.N = result m c :=
  (dats m 0 c).arrAt_eq_of_cover 4 (result m c) (fun t _ => flushed_eq m c t) cover

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.GroupDequant.Arr

end
-- ==== Proof.lean ====
/-
  A linear layer with group-wise quantised weights, tiled over 16 blocks of 256 output features, against the plain
  formula.

  Both programs compute, on the extended reals,

      out[r, n] = Σ_k x[r, k] · (int(q[n, k]) · scale[32·n + k / 128]) + bias[n]        r < 32, n, k < 4096.

  The reference regroups the weight matrix into 131072 runs of 128 entries, scales run `g` by `scale[g]`, regroups back,
  and takes `x · Wᵀ + bias`. The kernel regroups the SCALES instead, as 4096 rows of 32 runs; at grid point `t` it takes
  rows `256·t … 256·t + 255` of weights, scales and biases, spreads each scale over the 128 columns of its run,
  multiplies, contracts against all of `x` into a zero accumulator, adds the biases, and writes columns
  `256·t … 256·t + 255` of the result. Entry `(n, k)` of the matrix lies in run `(4096·n + k) / 128 = 32·n + k / 128`
  either way, the factors of every product and the terms of every sum come in the same order on both sides, and the
  kernel's narrowings to 16-bit floats are the identity on the extended reals: the two results are one function of
  the arguments, with no law of arithmetic needed and no use of the inputs' finiteness.

  Spec.lean states that function on the whole arrays and on one block; RefSide.lean reads the reference's run as it,
  index by index; BodyValue.lean reads the kernel body's stored value as its block form; ArrayValue.lean reads the
  blocks the body loads off the argument arrays and assembles the 16 column blocks into the whole result. The frames of
  the two kernel programs are the generated ones; the reference's frame is its generated run with the result dropped;
  the idealisation rewrote nothing, so `preserves` is trivial.
-/
import proofs.«162320_j76768245449069_1_alg».proof.Defs
import proofs.«162320_j76768245449069_1_alg».proof.Proof.Gen.Kernel
import proofs.«162320_j76768245449069_1_alg».proof.Proof.Gen.Kernel.Skeleton
import proofs.«162320_j76768245449069_1_alg».proof.Proof.Gen.Kernel.Launch
import proofs.«162320_j76768245449069_1_alg».proof.Proof.Gen.Kernel.Points
import proofs.«162320_j76768245449069_1_alg».proof.Proof.Gen.Kernel.Frame
import proofs.«162320_j76768245449069_1_alg».proof.Proof.Gen.KernelIdeal
import proofs.«162320_j76768245449069_1_alg».proof.Proof.Gen.KernelIdeal.Skeleton
import proofs.«162320_j76768245449069_1_alg».proof.Proof.Gen.KernelIdeal.Launch
import proofs.«162320_j76768245449069_1_alg».proof.Proof.Gen.KernelIdeal.Points
import proofs.«162320_j76768245449069_1_alg».proof.Proof.Gen.KernelIdeal.Frame
import proofs.«162320_j76768245449069_1_alg».proof.Proof.Gen.ReferenceIdeal
import proofs.«162320_j76768245449069_1_alg».proof.Proof.Gen.Pre_finite_inputs
import proofs.«162320_j76768245449069_1_alg».proof.Proof.Gen.KernelIdeal.Value
import proofs.«162320_j76768245449069_1_alg».proof.Proof.Gen.ReferenceIdeal.Run
import proofs.«162320_j76768245449069_1_alg».proof.Proof.Gen.ReferenceIdeal.Read
import proofs.«162320_j76768245449069_1_alg».proof.Proof.RefSide
import proofs.«162320_j76768245449069_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at `linear` of them. -/
theorem algebraic : Cert.algebraic_KernelIdeal_ReferenceIdeal := by
  intro m ρ m' ρ' _ hagree
  refine ⟨fun c => Cert.GroupDequant.Arr.result m c, Cert.GroupDequant.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.GroupDequant.Ref.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
